-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S64x64 : Shape := ⟨2, ![64, 64]⟩
abbrev S128x128 : Shape := ⟨2, ![128, 128]⟩
abbrev S128 : Shape := ⟨1, ![128]⟩
abbrev S8x192 : Shape := ⟨2, ![8, 192]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x192 : S_.BroadcastsInDim S8x192 (![] : Fin 0 → Fin S8x192.rank)
  reducesTo_S8x192_S_d0_1 : S8x192.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S128x128 .f32) (main_arg10 : FVec F S8x192 .f32) (main_arg11 : FVec F S8 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S8x192 .f32 := Host.absf main_arg10
  let main_cst_14 : FVec F S_ .f32 := constant S_ .f32 0x7F800000#32
  let main_v40 : FVec F S8x192 .f32 := broadcastInDim S8x192 ![] bcast_S_S8x192 main_cst_14
  let main_v41 : IVec S8x192 1 := cmpf .olt main_v39 main_v40
  let main_c_15 : IVec S_ 1 := constantI S_ 1 1#1
  let main_v42 : IVec S_ 1 := (fun x v => Host.reduce IntOp.andi x v reducesTo_S8x192_S_d0_1 h_S_) main_v41 main_c_15
  let main_v43 : IVec S_ 1 := andi main_v38 main_v42
  let main_v44 : FVec F S8 .f32 := Host.absf main_arg11
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x128 .f32) (main_arg10 : FVec F S8x192 .f32) (main_arg11 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x800000 32) (main_arg2 : IVec S100000 32) (main_arg3 : FVec F S64x64 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S8x192 .f32) (main_arg11 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S64x64 : Shape := ⟨2, ![64, 64]⟩
abbrev S128x128 : Shape := ⟨2, ![128, 128]⟩
abbrev S128 : Shape := ⟨1, ![128]⟩
abbrev S8x192 : Shape := ⟨2, ![8, 192]⟩
abbrev S8 : Shape := ⟨1, ![8]⟩
abbrev S1x800000 : Shape := ⟨2, ![1, 800000]⟩
abbrev S800000 : Shape := ⟨1, ![800000]⟩
abbrev S192x8 : Shape := ⟨2, ![192, 8]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S5000x128 : Shape := ⟨2, ![5000, 128]⟩
abbrev S64x128 : Shape := ⟨2, ![64, 128]⟩
abbrev S64x1 : Shape := ⟨2, ![64, 1]⟩
abbrev S64x192 : Shape := ⟨2, ![64, 192]⟩
abbrev S1x8 : Shape := ⟨2, ![1, 8]⟩
abbrev S64x8 : Shape := ⟨2, ![64, 8]⟩

abbrev nBuf : Space → Nat
  | .hbm => 91
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S64x64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S8x192, .f32⟩
  | .hbm, ⟨11, _⟩ => ⟨S8, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S192x8, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S100000x128, .f32⟩
  | .hbm, ⟨32, _⟩ => ⟨S800000x1, .i32⟩
  | .hbm, ⟨33, _⟩ => ⟨S100000x128, .f32⟩
  | .hbm, ⟨34, _⟩ => ⟨S_, .f32⟩
  | .hbm, ⟨35, _⟩ => ⟨S800000x1, .f32⟩
  | .hbm, ⟨36, _⟩ => ⟨S_, .f32⟩
  | .hbm, ⟨37, _⟩ => ⟨S100000x1, .f32⟩
  | .hbm, ⟨38, _⟩ => ⟨S800000x1, .i32⟩
  | .hbm, ⟨39, _⟩ => ⟨S100000x1, .f32⟩
  | .hbm, ⟨40, _⟩ => ⟨S_, .f32⟩
  | .hbm, ⟨41, _⟩ => ⟨S100000x1, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S100000x128, .f32⟩
  | .hbm, ⟨58, _⟩ => ⟨S800000x1, .i32⟩
  | .hbm, ⟨59, _⟩ => ⟨S100000x128, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S100000x1, .f32⟩
  | .hbm, ⟨64, _⟩ => ⟨S800000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S_, .f32⟩
  | .hbm, ⟨74, _⟩ => ⟨S64x128, .f32⟩
  | .hbm, ⟨75, _⟩ => ⟨S100000x1, .i32⟩
  | .hbm, ⟨76, _⟩ => ⟨S64x128, .f32⟩
  | .hbm, ⟨77, _⟩ => ⟨S_, .f32⟩
  | .hbm, ⟨78, _⟩ => ⟨S100000x1, .f32⟩
  | .hbm, ⟨79, _⟩ => ⟨S_, .f32⟩
  | .hbm, ⟨80, _⟩ => ⟨S64x1, .f32⟩
  | .hbm, ⟨81, _⟩ => ⟨S100000x1, .i32⟩
  | .hbm, ⟨82, _⟩ => ⟨S64x1, .f32⟩
  | .hbm, ⟨83, _⟩ => ⟨S_, .f32⟩
  | .hbm, ⟨84, _⟩ => ⟨S64x1, .f32⟩
  | .hbm, ⟨85, _⟩ => ⟨S64x1, .f32⟩
  | .hbm, ⟨86, _⟩ => ⟨S64x128, .f32⟩
  | .hbm, ⟨87, _⟩ => ⟨S64x128, .f32⟩
  | .hbm, ⟨88, _⟩ => ⟨S64x192, .f32⟩
  | .hbm, ⟨89, _⟩ => ⟨S1x8, .f32⟩
  | .hbm, ⟨90, _⟩ => ⟨S64x8, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S64x192, .f32⟩
  | .local _ .vmem, ⟨19, _⟩ => ⟨S192x8, .f32⟩
  | .local _ .vmem, ⟨20, _⟩ => ⟨S1x8, .f32⟩
  | .local _ .vmem, ⟨21, _⟩ => ⟨S64x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S192x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  transposes_S8x192_S192x8_1_0 : S8x192.Transposes [1, 0] S192x8
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S800000x1 : S_.BroadcastsInDim S800000x1 (![] : Fin 0 → Fin S800000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  concatenates_S64x128_S64x64_S64x192_d1 : Shape.Concatenates [S64x128, S64x64] S64x192 1
  shapeCasts_S8_S1x8 : S8.ShapeCasts S1x8
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S192x8_S192x8_0_0 : ∀ a, (![0, 0] : Fin 2 → Nat) a + S192x8.size a ≤ S192x8.size a
  h_S192x8 : 0 < S192x8.numel
  shapeCasts_S192x8_S192x8 : S192x8.ShapeCasts S192x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S64x8_S64x8_0_0 : ∀ a, (![0, 0] : Fin 2 → Nat) a + S64x8.size a ≤ S64x8.size a
  h_S64x8 : 0 < S64x8.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000x1_S800000x1_S800000x1_1_0_0_1_wf : ScatterDims.WF S100000x1 S800000x1 S800000x1 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x192_S192x8_S64x8_1_0_0_1_n_n_wf : DotDims.WF S64x192 S192x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x192.size a ≤ S64x192.size a
  hwx2_0 : ∀ i : grid2.Coords, EltTy.bits .f32 = 32 ∨ (Rect.block (s := S64x192) S64x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x8.size a ≤ S192x8.size a
  hwx2_1 : ∀ i : grid2.Coords, EltTy.bits .f32 = 32 ∨ (Rect.block (s := S192x8) S192x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x8.size a ≤ S64x8.size a
  hwx2_3 : ∀ i : grid2.Coords, EltTy.bits .f32 = 32 ∨ (Rect.block (s := S64x8) S64x8.size (cc2_transform_3 i) (hinb2_3 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x192_S192x8_S64x8_1_0_0_1_n_n : DotDims S64x192 S192x8 S64x8 where
  lhsContracting := [1]
  rhsContracting := [0]
  lhsNonContracting := [0]
  rhsNonContracting := [1]
  lhsBatch := []
  rhsBatch := []
  wf := dot_S64x192_S192x8_S64x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S64x192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v8) S192x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S64x8.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S64x64 : Shape := ⟨2, ![64, 64]⟩
abbrev S128x128 : Shape := ⟨2, ![128, 128]⟩
abbrev S128 : Shape := ⟨1, ![128]⟩
abbrev S8x192 : Shape := ⟨2, ![8, 192]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S64x128 : Shape := ⟨2, ![64, 128]⟩
abbrev S64x1 : Shape := ⟨2, ![64, 1]⟩
abbrev S64x192 : Shape := ⟨2, ![64, 192]⟩
abbrev S192x8 : Shape := ⟨2, ![192, 8]⟩
abbrev S64x8 : Shape := ⟨2, ![64, 8]⟩
abbrev S1x8 : Shape := ⟨2, ![1, 8]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S64x64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S8x192, .f32⟩
  | .hbm, ⟨11, _⟩ => ⟨S8, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S100000x128, .f32⟩
  | .hbm, ⟨27, _⟩ => ⟨S800000x1, .i32⟩
  | .hbm, ⟨28, _⟩ => ⟨S100000x128, .f32⟩
  | .hbm, ⟨29, _⟩ => ⟨S_, .f32⟩
  | .hbm, ⟨30, _⟩ => ⟨S800000x1, .f32⟩
  | .hbm, ⟨31, _⟩ => ⟨S_, .f32⟩
  | .hbm, ⟨32, _⟩ => ⟨S100000x1, .f32⟩
  | .hbm, ⟨33, _⟩ => ⟨S800000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S100000x128, .f32⟩
  | .hbm, ⟨62, _⟩ => ⟨S800000x1, .i32⟩
  | .hbm, ⟨63, _⟩ => ⟨S100000x128, .f32⟩
  | .hbm, ⟨64, _⟩ => ⟨S_, .f32⟩
  | .hbm, ⟨65, _⟩ => ⟨S800000x1, .f32⟩
  | .hbm, ⟨66, _⟩ => ⟨S_, .f32⟩
  | .hbm, ⟨67, _⟩ => ⟨S100000x1, .f32⟩
  | .hbm, ⟨68, _⟩ => ⟨S800000x1, .i32⟩
  | .hbm, ⟨69, _⟩ => ⟨S100000x1, .f32⟩
  | .hbm, ⟨70, _⟩ => ⟨S_, .f32⟩
  | .hbm, ⟨71, _⟩ => ⟨S100000x1, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S64x128, .f32⟩
  | .hbm, ⟨88, _⟩ => ⟨S100000x1, .i32⟩
  | .hbm, ⟨89, _⟩ => ⟨S64x128, .f32⟩
  | .hbm, ⟨90, _⟩ => ⟨S_, .f32⟩
  | .hbm, ⟨91, _⟩ => ⟨S100000x1, .f32⟩
  | .hbm, ⟨92, _⟩ => ⟨S_, .f32⟩
  | .hbm, ⟨93, _⟩ => ⟨S64x1, .f32⟩
  | .hbm, ⟨94, _⟩ => ⟨S100000x1, .i32⟩
  | .hbm, ⟨95, _⟩ => ⟨S64x1, .f32⟩
  | .hbm, ⟨96, _⟩ => ⟨S_, .f32⟩
  | .hbm, ⟨97, _⟩ => ⟨S64x1, .f32⟩
  | .hbm, ⟨98, _⟩ => ⟨S64x1, .f32⟩
  | .hbm, ⟨99, _⟩ => ⟨S64x128, .f32⟩
  | .hbm, ⟨100, _⟩ => ⟨S64x128, .f32⟩
  | .hbm, ⟨101, _⟩ => ⟨S64x192, .f32⟩
  | .hbm, ⟨102, _⟩ => ⟨S192x8, .f32⟩
  | .hbm, ⟨103, _⟩ => ⟨S64x8, .f32⟩
  | .hbm, ⟨104, _⟩ => ⟨S1x8, .f32⟩
  | .hbm, ⟨105, _⟩ => ⟨S64x8, .f32⟩
  | .hbm, ⟨106, _⟩ => ⟨S64x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S800000x1 : S_.BroadcastsInDim S800000x1 (![] : Fin 0 → Fin S800000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  concatenates_S64x128_S64x64_S64x192_d1 : Shape.Concatenates [S64x128, S64x64] S64x192 1
  transposes_S8x192_S192x8_1_0 : S8x192.Transposes [1, 0] S192x8
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000x1_S800000x1_S800000x1_1_0_0_1_wf : ScatterDims.WF S100000x1 S800000x1 S800000x1 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x192_S192x8_S64x8_1_0_0_1_n_n_wf : DotDims.WF S64x192 S192x8 S64x8 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x192_S192x8_S64x8_1_0_0_1_n_n : DotDims S64x192 S192x8 S64x8 where
  lhsContracting := [1]
  rhsContracting := [0]
  lhsNonContracting := [0]
  rhsNonContracting := [1]
  lhsBatch := []
  rhsBatch := []
  wf := dot_S64x192_S192x8_S64x8_1_0_0_1_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Spec.lean ====
/-
  The mathematics both programs compute, stated once over the extended reals.

  A SAGE layer on `n` rows of 128 features: at row `p`, column `q`,
      max ( (∑ₖ agg(p,k) · wl(k,q) + b(q)) + ∑ₖ h(p,k) · wr(k,q) , 0 )
  with the association of the two sums and the bias exactly as both programs add them, and the final linear map on
  64 rows of 192 features into 8: `∑ₖ z(p,k) · w(k,q) + b(q)`.  The value at a row depends on that row of `h` and `agg`
  only, so a block of rows of the result is the same function of the same block of rows of the operands.

  Also here: a matrix product into the zero word, and the host's `dot_general`, with ANY record whose six lists are the
  plain product's, read at an element as the plain sum over the contracted coordinate.
-/
import Idealize.ShloMosaic.PureOps.Ideal.Laws
import Idealize.ShloMosaic.Lib.ValueIdx
import Idealize.ShloMosaic.Lib.ValueLayout
import Idealize.ShloMosaic.Lib.Pipeline.Value
import proofs.«104093_j23424751632407_1_alg».proof.Proof.LibRowwise

noncomputable section

namespace Cert.Sage

open Idealize.ShloMosaic Idealize.ShloMosaic.ValueIdx Cert.Lib.Rowwise

/-- The zero the layer's rectifier compares with: the word both programs print. -/
abbrev zeroWord : EReal := Ideal.ofBits .f32 0x00000000#32

/-- One SAGE layer at row `p`, column `q`. -/
def convAt {n : Nat} (h agg : FVec Ideal ⟨2, ![n, 128]⟩ .f32) (wl wr : FVec Ideal ⟨2, ![128, 128]⟩ .f32) (b : Fin 128 → EReal)
    (p : Fin n) (q : Fin 128) : EReal :=
  max (((∑ k : Fin 128, agg (ix2 p k) * wl (ix2 k q)) + b q) + ∑ k : Fin 128, h (ix2 p k) * wr (ix2 k q)) zeroWord

/-- One SAGE layer as an array of `n` rows. -/
def conv {n : Nat} (h agg : FVec Ideal ⟨2, ![n, 128]⟩ .f32) (wl wr : FVec Ideal ⟨2, ![128, 128]⟩ .f32) (b : Fin 128 → EReal) :
    FVec Ideal ⟨2, ![n, 128]⟩ .f32 := fun j => convAt h agg wl wr b (j 0) (j 1)

theorem conv_apply {n : Nat} (h agg : FVec Ideal ⟨2, ![n, 128]⟩ .f32) (wl wr : FVec Ideal ⟨2, ![128, 128]⟩ .f32) (b : Fin 128 → EReal)
    (p : Fin n) (q : Fin 128) : conv h agg wl wr b (ix2 p q) = convAt h agg wl wr b p q := rfl

/-- A layer's row `p` of a block is the layer's row `r p` of the whole, when the block's rows are the whole's rows `r p`. -/
theorem convAt_rows {n n' : Nat} (h agg : FVec Ideal ⟨2, ![n, 128]⟩ .f32) (h' agg' : FVec Ideal ⟨2, ![n', 128]⟩ .f32)
    (wl wr : FVec Ideal ⟨2, ![128, 128]⟩ .f32) (b : Fin 128 → EReal) (p : Fin n) (p' : Fin n') (q : Fin 128)
    (hh : ∀ k : Fin 128, h (ix2 p k) = h' (ix2 p' k)) (ha : ∀ k : Fin 128, agg (ix2 p k) = agg' (ix2 p' k)) :
    convAt h agg wl wr b p q = convAt h' agg' wl wr b p' q := by
  unfold convAt
  simp only [hh, ha]

/-- The final linear map at row `p`, column `q`. -/
def linAt (z : FVec Ideal ⟨2, ![64, 192]⟩ .f32) (w : FVec Ideal ⟨2, ![192, 8]⟩ .f32) (b : Fin 8 → EReal) (p : Fin 64) (q : Fin 8) : EReal :=
  (∑ k : Fin 192, z (ix2 p k) * w (ix2 k q)) + b q

/-- The final linear map as an array. -/
def lin (z : FVec Ideal ⟨2, ![64, 192]⟩ .f32) (w : FVec Ideal ⟨2, ![192, 8]⟩ .f32) (b : Fin 8 → EReal) : FVec Ideal ⟨2, ![64, 8]⟩ .f32 :=
  fun j => linAt z w b (j 0) (j 1)

theorem lin_apply (z : FVec Ideal ⟨2, ![64, 192]⟩ .f32) (w : FVec Ideal ⟨2, ![192, 8]⟩ .f32) (b : Fin 8 → EReal) (p : Fin 64) (q : Fin 8) :
    lin z w b (ix2 p q) = linAt z w b p q := rfl

/-! ## Products with a plain record, read at an element -/

section Dot

variable {M K N : Nat}

/-- A matrix product into the zero word, with a record whose lists are the plain product's: the plain sum. -/
theorem matmul_zero_apply {φ₁ φ₂ : FTy} (D : DotDims ⟨2, ![M, K]⟩ ⟨2, ![K, N]⟩ ⟨2, ![M, N]⟩) (h1 : D.lhsContracting = [1])
    (h2 : D.rhsContracting = [0]) (h3 : D.lhsNonContracting = [0]) (h4 : D.rhsNonContracting = [1]) (h5 : D.lhsBatch = [])
    (h6 : D.rhsBatch = []) (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q) = ∑ k : Fin K, a (ix2 p k) * b (ix2 k q) := by
  rw [eq_plain D h1 h2 h3 h4 h5 h6]
  exact plain_matmul_zero_apply prec a b p q

/-- The host's product with the plain record: the plain sum. -/
theorem plain_dotGeneral_apply {φ₁ φ₂ : FTy} (prec : Option ContractPrecision) (sched : HostSchedule) (a : FVec Ideal ⟨2, ![M, K]⟩ φ₁)
    (b : FVec Ideal ⟨2, ![K, N]⟩ φ₂) (p : Fin M) (q : Fin N) :
    FloatOps.dotGeneral (DotDims.plain M K N) prec sched a b (ix2 p q) = ∑ k : Fin K, a (ix2 p k) * b (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- The host's product with a record whose lists are the plain product's: the plain sum. -/
theorem dotGeneral_apply {φ₁ φ₂ : FTy} (D : DotDims ⟨2, ![M, K]⟩ ⟨2, ![K, N]⟩ ⟨2, ![M, N]⟩) (h1 : D.lhsContracting = [1])
    (h2 : D.rhsContracting = [0]) (h3 : D.lhsNonContracting = [0]) (h4 : D.rhsNonContracting = [1]) (h5 : D.lhsBatch = [])
    (h6 : D.rhsBatch = []) (prec : Option ContractPrecision) (sched : HostSchedule) (a : FVec Ideal ⟨2, ![M, K]⟩ φ₁)
    (b : FVec Ideal ⟨2, ![K, N]⟩ φ₂) (p : Fin M) (q : Fin N) :
    FloatOps.dotGeneral D prec sched a b (ix2 p q) = ∑ k : Fin K, a (ix2 p k) * b (ix2 k q) := by
  rw [eq_plain D h1 h2 h3 h4 h5 h6]
  exact plain_dotGeneral_apply prec sched a b p q

end Dot

end Cert.Sage

end
-- ==== Proof.Payload.lean ====
/-
  What each kernel body stores, as the specification of its loaded blocks.

  At the extended reals a change of float format is the identity, a cast to the same shape is the identity, and a matrix
  product into the zero word is the plain sum; so the body of a SAGE layer on a block of 5000 rows stores, at row `p` and
  column `q`,  max((∑ₖ agg(p,k)·wl(k,q) + b(0,q)) + ∑ₖ h(p,k)·wr(k,q), 0),  the layer of the block's own rows, and the
  final body stores  ∑ₖ z(p,k)·w(k,q) + b(0,q).
-/
import proofs.«104093_j23424751632407_1_alg».proof.Proof.Gen.KernelIdeal.Skeleton
import proofs.«104093_j23424751632407_1_alg».proof.Proof.Spec

noncomputable section

namespace Cert.KernelIdeal.Pay

open Cert.KernelIdeal Cert.KernelIdeal.Gen Idealize.ShloMosaic Idealize.ShloMosaic.ValueIdx

/-- The first layer's body: the layer of its blocks' rows. -/
theorem pay0_eq (v0 v2 : Vec Ideal S5000x128 .f32) (v5 v8 : Vec Ideal S128x128 .f32) (v12 : Vec Ideal S1x128 .f32) :
    k0_pay1 (F := Ideal) v0 v2 v5 v8 v12 = Cert.Sage.conv (n := 5000) v0 v2 v5 v8 (fun q => v12 (ix2 0 q)) := by
  funext j
  obtain ⟨p, q, rfl⟩ : ∃ (p : Fin 5000) (q : Fin 128), j = ix2 p q := ⟨j 0, j 1, eq_ix2 j⟩
  rw [Cert.Sage.conv_apply]
  unfold k0_pay1 Cert.Sage.convAt
  dsimp only
  simp only [matmul]
  rw [maximumf_apply, addf_apply, addf_apply, broadcast_apply,
    Cert.Sage.matmul_zero_apply _ rfl rfl rfl rfl rfl rfl, Cert.Sage.matmul_zero_apply _ rfl rfl rfl rfl rfl rfl,
    broadcastTo_1b_ab_apply]
  simp only [truncf_apply, shapeCast_self]
  rfl

/-- The second layer's body: the layer of its blocks' rows. -/
theorem pay1_eq (v0 v3 : Vec Ideal S5000x128 .f32) (v6 v9 : Vec Ideal S128x128 .f32) (v13 : Vec Ideal S1x128 .f32) :
    k1_pay1 (F := Ideal) v0 v3 v6 v9 v13 = Cert.Sage.conv (n := 5000) v0 v3 v6 v9 (fun q => v13 (ix2 0 q)) := by
  funext j
  obtain ⟨p, q, rfl⟩ : ∃ (p : Fin 5000) (q : Fin 128), j = ix2 p q := ⟨j 0, j 1, eq_ix2 j⟩
  rw [Cert.Sage.conv_apply]
  unfold k1_pay1 Cert.Sage.convAt
  dsimp only
  simp only [matmul]
  rw [maximumf_apply, addf_apply, addf_apply, broadcast_apply,
    Cert.Sage.matmul_zero_apply _ rfl rfl rfl rfl rfl rfl, Cert.Sage.matmul_zero_apply _ rfl rfl rfl rfl rfl rfl,
    broadcastTo_1b_ab_apply]
  simp only [truncf_apply, shapeCast_self]
  rfl

/-- The final body: the linear map of its blocks. -/
theorem pay2_eq (v0 : Vec Ideal S64x192 .f32) (v3 : Vec Ideal S192x8 .f32) (v7 : Vec Ideal S1x8 .f32) :
    k2_pay1 (F := Ideal) v0 v3 v7 = Cert.Sage.lin v0 v3 (fun q => v7 (ix2 0 q)) := by
  funext j
  obtain ⟨p, q, rfl⟩ : ∃ (p : Fin 64) (q : Fin 8), j = ix2 p q := ⟨j 0, j 1, eq_ix2 j⟩
  rw [Cert.Sage.lin_apply]
  unfold k2_pay1 Cert.Sage.linAt
  dsimp only
  simp only [matmul]
  rw [addf_apply, Cert.Sage.matmul_zero_apply _ rfl rfl rfl rfl rfl rfl, broadcastTo_1b_ab_apply]
  simp only [truncf_apply, shapeCast_self]

end Cert.KernelIdeal.Pay

end
-- ==== Proof.Region0.lean ====
/-
  Region 0's result array as ONE function of the arrays the region finds.

  The region runs the first SAGE layer on 20 blocks of 5000 rows. Block `t` of the result is the layer of block `t` of
  `h` and of `agg` with the whole weight matrices and the bias row; the layer's value at a row reads that row only, so block
  `t` of the result is block `t` of the layer of the WHOLE arrays, and the 20 blocks cover the 100000 rows.
-/
import proofs.«104093_j23424751632407_1_alg».proof.Proof.Gen.KernelIdeal.Frame
import proofs.«104093_j23424751632407_1_alg».proof.Proof.Payload

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of the body's whole-buffer accesses, as the constant function. -/
theorem hz : (![0, 0] : Fin 2 → Nat) = fun _ => 0 := funext fun a => by fin_cases a <;> rfl

/-- The printed index maps, decided once over the grid: the two row-blocked inputs move with the result's block
    (block `t` at column block 0), and the two weight matrices and the bias row stay at block (0, 0). -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The grid has 20 points. -/
theorem N_eq : cfg0.N = 20 := by decide

/-- Row `p` of a block of 5000 rows whose rows are rows `T * 5000 + p` of the whole arrays: the layer of the block there is
    the layer of the whole arrays at row `T * 5000 + p`. -/
theorem conv_rows (T : Nat) (hT : T < 20) (H A : FVec Ideal ⟨2, ![100000, 128]⟩ .f32) (x0 x1 : FVec Ideal ⟨2, ![5000, 128]⟩ .f32)
    (WL WR : FVec Ideal ⟨2, ![128, 128]⟩ .f32) (b : Fin 128 → EReal)
    (h0 : ∀ (p : Fin 5000) (k : Fin 128), x0 (ix2 p k) = H (ix2 ⟨T * 5000 + p.val, by have := p.isLt; omega⟩ k))
    (h1 : ∀ (p : Fin 5000) (k : Fin 128), x1 (ix2 p k) = A (ix2 ⟨T * 5000 + p.val, by have := p.isLt; omega⟩ k))
    (p : Fin 5000) (q : Fin 128) :
    Cert.Sage.conv (n := 5000) x0 x1 WL WR b (ix2 p q)
      = Cert.Sage.conv (n := 100000) H A WL WR b (ix2 ⟨T * 5000 + p.val, by have := p.isLt; omega⟩ q) := by
  rw [Cert.Sage.conv_apply, Cert.Sage.conv_apply]
  exact Cert.Sage.convAt_rows _ _ _ _ _ _ _ _ _ _ (h0 p) (h1 p)

/-- A point of the grid is below 20. -/
theorem t_lt (t : Fin cfg0.N) : t.val < 20 := lt_of_lt_of_eq t.isLt N_eq

/-- Row `p` of window 0's block at point `t` is row `t * 5000 + p` of its array. -/
theorem blk0_rows (c : Dev nD) (t : Fin cfg0.N) (p : Fin 5000) (k : Fin 128) :
    (iblk0 V c 0 t : Vec Ideal S5000x128 .f32) (ix2 p k)
      = (V c main_arg0 : Vec Ideal S100000x128 .f32) (ix2 ⟨t.val * 5000 + p.val, by have := p.isLt; have := t_lt t; omega⟩ k) := by
  obtain ⟨-, -, e0, e1, -⟩ := idx_facts t
  show V c main_arg0 (((cfg0.win 0).blk t).view.emb (ix2 p k)) = V c main_arg0 _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row `p` of window 1's block at point `t` is row `t * 5000 + p` of its array. -/
theorem blk1_rows (c : Dev nD) (t : Fin cfg0.N) (p : Fin 5000) (k : Fin 128) :
    (iblk0 V c 1 t : Vec Ideal S5000x128 .f32) (ix2 p k)
      = (V c main_v26 : Vec Ideal S100000x128 .f32) (ix2 ⟨t.val * 5000 + p.val, by have := p.isLt; have := t_lt t; omega⟩ k) := by
  obtain ⟨-, -, -, -, e0, e1, -⟩ := idx_facts t
  show V c main_v26 (((cfg0.win 1).blk t).view.emb (ix2 p k)) = V c main_v26 _
  refine congrArg (V c main_v26) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- Window 2's block at every point is its whole array. -/
theorem blk2_whole (c : Dev nD) (t : Fin cfg0.N) : (iblk0 V c 2 t : Vec Ideal S128x128 .f32) = V c main_v4 := by
  obtain ⟨-, -, -, -, -, -, e0, e1, -⟩ := idx_facts t
  funext y
  show V c main_v4 (((cfg0.win 2).blk t).view.emb y) = V c main_v4 y
  refine congrArg (V c main_v4) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block at every point is its whole array. -/
theorem blk3_whole (c : Dev nD) (t : Fin cfg0.N) : (iblk0 V c 3 t : Vec Ideal S1x128 .f32) = V c main_v27 := by
  obtain ⟨-, -, -, -, -, -, -, -, e0, e1, -⟩ := idx_facts t
  funext y
  show V c main_v27 (((cfg0.win 3).blk t).view.emb y) = V c main_v27 y
  refine congrArg (V c main_v27) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block at every point is its whole array. -/
theorem blk4_whole (c : Dev nD) (t : Fin cfg0.N) : (iblk0 V c 4 t : Vec Ideal S128x128 .f32) = V c main_v5 := by
  obtain ⟨-, -, -, -, -, -, -, -, -, -, e0, e1⟩ := idx_facts t
  funext y
  show V c main_v5 (((cfg0.win 4).blk t).view.emb y) = V c main_v5 y
  refine congrArg (V c main_v5) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Where an element of the result's block at point `t` sits in the result array: row `t * 5000 + p`, the same column. -/
theorem emb5 (t : Fin cfg0.N) (p : Fin 5000) (q : Fin 128) :
    ((cfg0.win 5).blk t).view.emb (ix2 p q)
      = (ix2 ⟨t.val * 5000 + p.val, by have := p.isLt; have := t_lt t; omega⟩ q : S100000x128.Idx) := by
  obtain ⟨e0, e1, -⟩ := idx_facts t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- WHAT POINT `t` WRITES BACK is block `t` of the layer of the whole arrays the region finds. -/
theorem flushed_eq (c : Dev nD) (t : Fin cfg0.N) :
    (dat0 (F := Ideal) V c).flushed 5 t = ((cfg0.win 5).blk t).view.read (Elt Ideal)
      (Cert.Sage.conv (n := 100000) (V c main_arg0) (V c main_v26) (V c main_v4) (V c main_v5) (fun q => V c main_v27 (ix2 0 q))) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  rw [Cert.KernelIdeal.Pay.pay0_eq, blk2_whole V c t, blk3_whole V c t, blk4_whole V c t]
  funext j
  obtain ⟨p, q, rfl⟩ : ∃ (p : Fin 5000) (q : Fin 128), j = ix2 p q := ⟨j 0, j 1, eq_ix2 j⟩
  show Cert.Sage.conv (n := 5000) (iblk0 V c 0 t) (iblk0 V c 1 t) (V c main_v4) (V c main_v5) (fun q => V c main_v27 (ix2 0 q)) (ix2 p q)
    = Cert.Sage.conv (n := 100000) (V c main_arg0) (V c main_v26) (V c main_v4) (V c main_v5) (fun q => V c main_v27 (ix2 0 q))
        (((cfg0.win 5).blk t).view.emb (ix2 p q))
  rw [emb5 t p q]
  exact conv_rows t.val (t_lt t) _ _ _ _ _ _ _ (blk0_rows V c t) (blk1_rows V c t) p q

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- The 20 blocks of 5000 rows cover the 100000 rows: row `r` is in the block of point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < cfg0.N := by rw [N_eq]; omega
  obtain ⟨e0, e1, -⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]; omega

/-- THE ARRAY region 0 leaves in its result buffer: the layer of the arrays it was entered with. -/
theorem final (c : Dev nD) :
    (dat0 (F := Ideal) V c).arrAt 5 cfg0.N
      = Cert.Sage.conv (n := 100000) (V c main_arg0) (V c main_v26) (V c main_v4) (V c main_v5) (fun q => V c main_v27 (ix2 0 q)) :=
  (dat0 (F := Ideal) V c).arrAt_eq_of_cover 5 _ (fun t _ => flushed_eq V c t) cover

end Cert.KernelIdeal.Region0

end
-- ==== Proof.Region1.lean ====
/-
  Region 1's result array as ONE function of the arrays the region finds.

  The region runs the second SAGE layer on 20 blocks of 5000 rows. Block `t` of the result is the layer of block `t` of
  `h` and of `agg` with the whole weight matrices and the bias row; the layer's value at a row reads that row only, so block
  `t` of the result is block `t` of the layer of the WHOLE arrays, and the 20 blocks cover the 100000 rows.
-/
import proofs.«104093_j23424751632407_1_alg».proof.Proof.Gen.KernelIdeal.Frame
import proofs.«104093_j23424751632407_1_alg».proof.Proof.Payload

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of the body's whole-buffer accesses, as the constant function. -/
theorem hz : (![0, 0] : Fin 2 → Nat) = fun _ => 0 := funext fun a => by fin_cases a <;> rfl

/-- The printed index maps, decided once over the grid: the two row-blocked inputs move with the result's block
    (block `t` at column block 0), and the two weight matrices and the bias row stay at block (0, 0). -/
theorem idx_facts : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The grid has 20 points. -/
theorem N_eq : cfg1.N = 20 := by decide

/-- Row `p` of a block of 5000 rows whose rows are rows `T * 5000 + p` of the whole arrays: the layer of the block there is
    the layer of the whole arrays at row `T * 5000 + p`. -/
theorem conv_rows (T : Nat) (hT : T < 20) (H A : FVec Ideal ⟨2, ![100000, 128]⟩ .f32) (x0 x1 : FVec Ideal ⟨2, ![5000, 128]⟩ .f32)
    (WL WR : FVec Ideal ⟨2, ![128, 128]⟩ .f32) (b : Fin 128 → EReal)
    (h0 : ∀ (p : Fin 5000) (k : Fin 128), x0 (ix2 p k) = H (ix2 ⟨T * 5000 + p.val, by have := p.isLt; omega⟩ k))
    (h1 : ∀ (p : Fin 5000) (k : Fin 128), x1 (ix2 p k) = A (ix2 ⟨T * 5000 + p.val, by have := p.isLt; omega⟩ k))
    (p : Fin 5000) (q : Fin 128) :
    Cert.Sage.conv (n := 5000) x0 x1 WL WR b (ix2 p q)
      = Cert.Sage.conv (n := 100000) H A WL WR b (ix2 ⟨T * 5000 + p.val, by have := p.isLt; omega⟩ q) := by
  rw [Cert.Sage.conv_apply, Cert.Sage.conv_apply]
  exact Cert.Sage.convAt_rows _ _ _ _ _ _ _ _ _ _ (h0 p) (h1 p)

/-- A point of the grid is below 20. -/
theorem t_lt (t : Fin cfg1.N) : t.val < 20 := lt_of_lt_of_eq t.isLt N_eq

/-- Row `p` of window 0's block at point `t` is row `t * 5000 + p` of its array. -/
theorem blk0_rows (c : Dev nD) (t : Fin cfg1.N) (p : Fin 5000) (k : Fin 128) :
    (iblk1 V c 0 t : Vec Ideal S5000x128 .f32) (ix2 p k)
      = (V c main_v28 : Vec Ideal S100000x128 .f32) (ix2 ⟨t.val * 5000 + p.val, by have := p.isLt; have := t_lt t; omega⟩ k) := by
  obtain ⟨-, -, e0, e1, -⟩ := idx_facts t
  show V c main_v28 (((cfg1.win 0).blk t).view.emb (ix2 p k)) = V c main_v28 _
  refine congrArg (V c main_v28) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row `p` of window 1's block at point `t` is row `t * 5000 + p` of its array. -/
theorem blk1_rows (c : Dev nD) (t : Fin cfg1.N) (p : Fin 5000) (k : Fin 128) :
    (iblk1 V c 1 t : Vec Ideal S5000x128 .f32) (ix2 p k)
      = (V c main_v46 : Vec Ideal S100000x128 .f32) (ix2 ⟨t.val * 5000 + p.val, by have := p.isLt; have := t_lt t; omega⟩ k) := by
  obtain ⟨-, -, -, -, e0, e1, -⟩ := idx_facts t
  show V c main_v46 (((cfg1.win 1).blk t).view.emb (ix2 p k)) = V c main_v46 _
  refine congrArg (V c main_v46) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- Window 2's block at every point is its whole array. -/
theorem blk2_whole (c : Dev nD) (t : Fin cfg1.N) : (iblk1 V c 2 t : Vec Ideal S128x128 .f32) = V c main_v6 := by
  obtain ⟨-, -, -, -, -, -, e0, e1, -⟩ := idx_facts t
  funext y
  show V c main_v6 (((cfg1.win 2).blk t).view.emb y) = V c main_v6 y
  refine congrArg (V c main_v6) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block at every point is its whole array. -/
theorem blk3_whole (c : Dev nD) (t : Fin cfg1.N) : (iblk1 V c 3 t : Vec Ideal S1x128 .f32) = V c main_v47 := by
  obtain ⟨-, -, -, -, -, -, -, -, e0, e1, -⟩ := idx_facts t
  funext y
  show V c main_v47 (((cfg1.win 3).blk t).view.emb y) = V c main_v47 y
  refine congrArg (V c main_v47) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block at every point is its whole array. -/
theorem blk4_whole (c : Dev nD) (t : Fin cfg1.N) : (iblk1 V c 4 t : Vec Ideal S128x128 .f32) = V c main_v7 := by
  obtain ⟨-, -, -, -, -, -, -, -, -, -, e0, e1⟩ := idx_facts t
  funext y
  show V c main_v7 (((cfg1.win 4).blk t).view.emb y) = V c main_v7 y
  refine congrArg (V c main_v7) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Where an element of the result's block at point `t` sits in the result array: row `t * 5000 + p`, the same column. -/
theorem emb5 (t : Fin cfg1.N) (p : Fin 5000) (q : Fin 128) :
    ((cfg1.win 5).blk t).view.emb (ix2 p q)
      = (ix2 ⟨t.val * 5000 + p.val, by have := p.isLt; have := t_lt t; omega⟩ q : S100000x128.Idx) := by
  obtain ⟨e0, e1, -⟩ := idx_facts t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-- WHAT POINT `t` WRITES BACK is block `t` of the layer of the whole arrays the region finds. -/
theorem flushed_eq (c : Dev nD) (t : Fin cfg1.N) :
    (dat1 (F := Ideal) V c).flushed 5 t = ((cfg1.win 5).blk t).view.read (Elt Ideal)
      (Cert.Sage.conv (n := 100000) (V c main_v28) (V c main_v46) (V c main_v6) (V c main_v7) (fun q => V c main_v47 (ix2 0 q))) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz, View.ld_unit_zero (S := S1x128) hz]
  rw [Cert.KernelIdeal.Pay.pay1_eq, blk2_whole V c t, blk3_whole V c t, blk4_whole V c t]
  funext j
  obtain ⟨p, q, rfl⟩ : ∃ (p : Fin 5000) (q : Fin 128), j = ix2 p q := ⟨j 0, j 1, eq_ix2 j⟩
  show Cert.Sage.conv (n := 5000) (iblk1 V c 0 t) (iblk1 V c 1 t) (V c main_v6) (V c main_v7) (fun q => V c main_v47 (ix2 0 q)) (ix2 p q)
    = Cert.Sage.conv (n := 100000) (V c main_v28) (V c main_v46) (V c main_v6) (V c main_v7) (fun q => V c main_v47 (ix2 0 q))
        (((cfg1.win 5).blk t).view.emb (ix2 p q))
  rw [emb5 t p q]
  exact conv_rows t.val (t_lt t) _ _ _ _ _ _ _ (blk0_rows V c t) (blk1_rows V c t) p q

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v48).slice (win1_5.rect t)).set ↔ _
  rw [View.set_slice_whole, Rect.mem_set_unit]
  exact Iff.rfl

/-- The 20 blocks of 5000 rows cover the 100000 rows: row `r` is in the block of point `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 5000 < cfg1.N := by rw [N_eq]; omega
  obtain ⟨e0, e1, -⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e1]; omega

/-- THE ARRAY region 1 leaves in its result buffer: the layer of the arrays it was entered with. -/
theorem final (c : Dev nD) :
    (dat1 (F := Ideal) V c).arrAt 5 cfg1.N
      = Cert.Sage.conv (n := 100000) (V c main_v28) (V c main_v46) (V c main_v6) (V c main_v7) (fun q => V c main_v47 (ix2 0 q)) :=
  (dat1 (F := Ideal) V c).arrAt_eq_of_cover 5 _ (fun t _ => flushed_eq V c t) cover

end Cert.KernelIdeal.Region1

end
-- ==== Proof.Region2.lean ====
/-
  Region 2's result array as ONE function of the arrays the region finds.

  The region has one grid point whose blocks are the whole arrays: the result is the final linear map of `z`, the weight
  matrix and the bias row.
-/
import proofs.«104093_j23424751632407_1_alg».proof.Proof.Gen.KernelIdeal.Frame
import proofs.«104093_j23424751632407_1_alg».proof.Proof.Payload

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps at the region's grid point: every window's block index is zero on both axes. -/
theorem index_zero : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Window 0's block is the whole of `z`. -/
theorem block_z (c : Dev nD) (t : Fin cfg2.N) : (iblk2 (F := Ideal) V c 0 t : Vec Ideal S64x192 .f32) = V c main_v60 := by
  obtain ⟨e0, e1, -⟩ := index_zero t
  funext y
  show V c main_v60 (((cfg2.win 0).blk t).view.emb y) = V c main_v60 y
  refine congrArg (V c main_v60) ?_
  funext a; apply Fin.ext
  match a with
  | ⟨0, _⟩ => show win2_0.index t (0 : Fin 2) * 64 + 1 * (y 0).val = (y 0).val; omega
  | ⟨1, _⟩ => show win2_0.index t (1 : Fin 2) * 192 + 1 * (y 1).val = (y 1).val; omega

/-- Window 1's block is the whole weight matrix. -/
theorem block_w (c : Dev nD) (t : Fin cfg2.N) : (iblk2 (F := Ideal) V c 1 t : Vec Ideal S192x8 .f32) = V c main_v8 := by
  obtain ⟨-, -, e0, e1, -⟩ := index_zero t
  funext y
  show V c main_v8 (((cfg2.win 1).blk t).view.emb y) = V c main_v8 y
  refine congrArg (V c main_v8) ?_
  funext a; apply Fin.ext
  match a with
  | ⟨0, _⟩ => show win2_1.index t (0 : Fin 2) * 192 + 1 * (y 0).val = (y 0).val; omega
  | ⟨1, _⟩ => show win2_1.index t (1 : Fin 2) * 8 + 1 * (y 1).val = (y 1).val; omega

/-- Window 2's block is the whole bias row. -/
theorem block_b (c : Dev nD) (t : Fin cfg2.N) : (iblk2 (F := Ideal) V c 2 t : Vec Ideal S1x8 .f32) = V c main_v61 := by
  obtain ⟨-, -, -, -, e0, e1, -⟩ := index_zero t
  funext y
  show V c main_v61 (((cfg2.win 2).blk t).view.emb y) = V c main_v61 y
  refine congrArg (V c main_v61) ?_
  funext a; apply Fin.ext
  match a with
  | ⟨0, _⟩ => show win2_2.index t (0 : Fin 2) * 1 + 1 * (y 0).val = (y 0).val; omega
  | ⟨1, _⟩ => show win2_2.index t (1 : Fin 2) * 8 + 1 * (y 1).val = (y 1).val; omega

/-- The output window's block is the whole result array: what the point writes back, read through the block, is any
    array function itself. -/
theorem block_out (G : S64x8.Idx → EReal) (t : Fin cfg2.N) :
    (cfg2.win 3).cut (grid2.coords t) G = ((cfg2.win 3).blk t).view.read (Elt Ideal) G := by
  obtain ⟨-, -, -, -, -, -, e0, e1⟩ := index_zero t
  funext j
  show G j = G (((cfg2.win 3).blk t).view.emb j)
  refine congrArg G ?_
  funext a; apply Fin.ext
  match a with
  | ⟨0, _⟩ => show (j 0).val = win2_3.index t (0 : Fin 2) * 64 + 1 * (j 0).val; omega
  | ⟨1, _⟩ => show (j 1).val = win2_3.index t (1 : Fin 2) * 8 + 1 * (j 1).val; omega

/-- What the one grid point writes back is the whole of the final linear map of the arrays the region finds. -/
theorem flushed_eq (c : Dev nD) (t : Fin cfg2.N) :
    (dat2 (F := Ideal) V c).flushed 3 t = ((cfg2.win 3).blk t).view.read (Elt Ideal)
      (Cert.Sage.lin (V c main_v60) (V c main_v8) (fun q => V c main_v61 (ix2 0 q))) := by
  show (cfg2.win 3).cut (grid2.coords t) ((dat2 (F := Ideal) V c).after 3 t) = _
  rw [after2_3]
  unfold out2_3
  rw [View.canon_unit_zero zero_off]
  simp only [View.ld_unit_zero (S := S64x192) zero_off, View.ld_unit_zero (S := S192x8) zero_off, View.ld_unit_zero (S := S1x8) zero_off]
  rw [Cert.KernelIdeal.Pay.pay2_eq, block_z, block_w, block_b]
  exact block_out _ t

/-- An index of the result array is in the point's block iff each coordinate is in the block's range on its axis. -/
theorem mem_blk (t : Fin cfg2.N) (i : S64x8.Idx) :
    i ∈ ((cfg2.win 3).blk t).view.set ↔ ∀ a : Fin 2, win2_3.index t a * S64x8.size a ≤ (i a).val ∧ (i a).val < win2_3.index t a * S64x8.size a + S64x8.size a := by
  show i ∈ ((View.whole main_v62).slice (win2_3.rect t)).set ↔ _
  rw [View.set_slice_whole, Rect.mem_set_unit]
  exact Iff.rfl

/-- The one grid point's block covers every index of the result array. -/
theorem cover (i : S64x8.Idx) : ∃ t : Fin cfg2.N, (cfg2.win 3).flush t = true ∧ i ∈ ((cfg2.win 3).blk t).view.set := by
  obtain ⟨-, -, -, -, -, -, e0, e1⟩ := index_zero t2_0
  have hi0 : (i 0).val < 64 := (i 0).isLt
  have hi1 : (i 1).val < 8 := (i 1).isLt
  refine ⟨t2_0, flush2_3 t2_0, ?_⟩
  rw [mem_blk]
  intro a
  match a with
  | ⟨0, _⟩ => show win2_3.index t2_0 (0 : Fin 2) * 64 ≤ (i 0).val ∧ (i 0).val < win2_3.index t2_0 (0 : Fin 2) * 64 + 64; omega
  | ⟨1, _⟩ => show win2_3.index t2_0 (1 : Fin 2) * 8 ≤ (i 1).val ∧ (i 1).val < win2_3.index t2_0 (1 : Fin 2) * 8 + 8; omega

/-- THE ARRAY region 2 leaves in its result buffer: the final linear map of the arrays it was entered with. -/
theorem final (c : Dev nD) :
    (dat2 (F := Ideal) V c).arrAt 3 cfg2.N
      = Cert.Sage.lin (V c main_v60) (V c main_v8) (fun q => V c main_v61 (ix2 0 q)) :=
  (dat2 (F := Ideal) V c).arrAt_eq_of_cover 3 _ (fun t _ => flushed_eq V c t) cover

end Cert.KernelIdeal.Region2

end
-- ==== Proof.KernelFold.lean ====
/-
  The kernel program's result as one function of its arguments.

  Between its three regions the program runs host operations: it takes the edges' source and destination rows, averages
  the gathered source rows at each destination (a scatter-add divided by the clamped count), transposes the weights and
  views each bias as a row; after the second layer it averages the rows of each graph, appends the graph embedding, and
  the last region applies the final linear map. Each region's result array is the specification of the arrays it was
  entered with, so the program's result is the specification composed with those host operations, every one of which
  is kept as a name and never opened.
-/
import proofs.«104093_j23424751632407_1_alg».proof.Proof.Gen.KernelIdeal.Frame
import proofs.«104093_j23424751632407_1_alg».proof.Proof.Region0
import proofs.«104093_j23424751632407_1_alg».proof.Proof.Region1
import proofs.«104093_j23424751632407_1_alg».proof.Proof.Region2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

/-- A float array of shape `S`, and an array of 32-bit integers, as the program's buffers hold them. -/
abbrev F32 (S : Shape) := FVec Ideal S .f32
abbrev I32 (S : Shape) := IVec S 32

/-! ## The host operations, named -/

/-- The edges' source rows: row 0 of the edge list. -/
def srcOf (e : I32 S2x800000) : I32 S800000 :=
  shapeCast _ (extractStridedSlice S1x800000 ![0, 0] e slices_S2x800000_S1x800000_0_0) shapeCasts_S1x800000_S800000
/-- The edges' destination rows: row 1 of the edge list. -/
def dstOf (e : I32 S2x800000) : I32 S800000 :=
  shapeCast _ (extractStridedSlice S1x800000 ![1, 0] e slices_S2x800000_S1x800000_1_0) shapeCasts_S1x800000_S800000
/-- The mean, at each destination row, of the source rows of `h` gathered along the edges (a negative source counted
    from the end), the count clamped below by one. -/
def segMean (h : F32 S100000x128) (s d : I32 S800000) : F32 S100000x128 :=
  Host.divf
    (Host.scatterAdd scatter_S100000x128_S800000x1_S800000x128_1_0_0_1
      (broadcastInDim S100000x128 ![] bcast_S_S100000x128 (constant S_ .f32 0x00000000#32))
      (broadcastInDim S800000x1 ![0] bcast_S800000_S800000x1_0 d)
      (Host.gather gather_S100000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 100000#32))) s))))
    (broadcastInDim S100000x128 ![0, 1] bcast_S100000x1_S100000x128_0_1
      (maximumf
        (Host.scatterAdd scatter_S100000x1_S800000x1_S800000x1_1_0_0_1
          (broadcastInDim S100000x1 ![] bcast_S_S100000x1 (constant S_ .f32 0x00000000#32))
          (broadcastInDim S800000x1 ![0] bcast_S800000_S800000x1_0 d)
          (broadcastInDim S800000x1 ![] bcast_S_S800000x1 (constant S_ .f32 0x3F800000#32)))
        (broadcastInDim S100000x1 ![] bcast_S_S100000x1 (constant S_ .f32 0x3F800000#32))))
/-- The mean of the rows of `h` of each graph, the count clamped below by one. -/
def pool (h : F32 S100000x128) (g : I32 S100000) : F32 S64x128 :=
  Host.divf
    (Host.scatterAdd scatter_S64x128_S100000x1_S100000x128_1_0_0_1
      (broadcastInDim S64x128 ![] bcast_S_S64x128 (constant S_ .f32 0x00000000#32))
      (broadcastInDim S100000x1 ![0] bcast_S100000_S100000x1_0 g) h)
    (broadcastInDim S64x128 ![0, 1] bcast_S64x1_S64x128_0_1
      (maximumf
        (Host.scatterAdd scatter_S64x1_S100000x1_S100000x1_1_0_0_1
          (broadcastInDim S64x1 ![] bcast_S_S64x1 (constant S_ .f32 0x00000000#32))
          (broadcastInDim S100000x1 ![0] bcast_S100000_S100000x1_0 g)
          (broadcastInDim S100000x1 ![] bcast_S_S100000x1 (constant S_ .f32 0x3F800000#32)))
        (broadcastInDim S64x1 ![] bcast_S_S64x1 (constant S_ .f32 0x3F800000#32))))
/-- The pooled rows with the graph embedding appended. -/
def cat (a : F32 S64x128) (e : F32 S64x64) : F32 S64x192 :=
  concatenate S64x192 1 [⟨S64x128, a⟩, ⟨S64x64, e⟩] concatenates_S64x128_S64x64_S64x192_d1
/-- A layer's weight matrix transposed, and the final map's. -/
def tr (w : F32 S128x128) : F32 S128x128 := transpose S128x128 [1, 0] w transposes_S128x128_S128x128_1_0
def trLin (w : F32 S8x192) : F32 S192x8 := transpose S192x8 [1, 0] w transposes_S8x192_S192x8_1_0
/-- A bias as a one-row array. -/
def row128 (b : F32 S128) : F32 S1x128 := shapeCast _ b shapeCasts_S128_S1x128
def row8 (b : F32 S8) : F32 S1x8 := shapeCast _ b shapeCasts_S8_S1x8

variable (m : (ℓ : Loc nD τ sig) → Buf (Elt Ideal) ℓ) (ρ : Dev nD → PrngReg)

/-! ## What region 0 is entered with: the first host stretch read at each buffer -/

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_v26 (c : Dev nD) : V1 m ρ c main_v26 = segMean (m ((c : Thread nD τ).loc main_arg0)) (srcOf (m ((c : Thread nD τ).loc main_arg1))) (dstOf (m ((c : Thread nD τ).loc main_arg1))) := by
  show StableHlo.after hostOps0 (W0 m ρ c) (Proc.devRef .tc main_v26) = _
  after_results_simp <;> rfl
theorem V1_v4 (c : Dev nD) : V1 m ρ c main_v4 = tr (m ((c : Thread nD τ).loc main_arg4)) := by
  show StableHlo.after hostOps0 (W0 m ρ c) (Proc.devRef .tc main_v4) = _
  after_results_simp <;> rfl
theorem V1_v5 (c : Dev nD) : V1 m ρ c main_v5 = tr (m ((c : Thread nD τ).loc main_arg6)) := by
  show StableHlo.after hostOps0 (W0 m ρ c) (Proc.devRef .tc main_v5) = _
  after_results_simp <;> rfl
theorem V1_v27 (c : Dev nD) : V1 m ρ c main_v27 = row128 (m ((c : Thread nD τ).loc main_arg5)) := by
  show StableHlo.after hostOps0 (W0 m ρ c) (Proc.devRef .tc main_v27) = _
  after_results_simp <;> rfl
theorem V1_v1 (c : Dev nD) : V1 m ρ c main_v1 = srcOf (m ((c : Thread nD τ).loc main_arg1)) := by
  show StableHlo.after hostOps0 (W0 m ρ c) (Proc.devRef .tc main_v1) = _
  after_results_simp <;> rfl
theorem V1_v3 (c : Dev nD) : V1 m ρ c main_v3 = dstOf (m ((c : Thread nD τ).loc main_arg1)) := by
  show StableHlo.after hostOps0 (W0 m ρ c) (Proc.devRef .tc main_v3) = _
  after_results_simp <;> rfl
theorem V1_v6 (c : Dev nD) : V1 m ρ c main_v6 = tr (m ((c : Thread nD τ).loc main_arg7)) := by
  show StableHlo.after hostOps0 (W0 m ρ c) (Proc.devRef .tc main_v6) = _
  after_results_simp <;> rfl
theorem V1_v7 (c : Dev nD) : V1 m ρ c main_v7 = tr (m ((c : Thread nD τ).loc main_arg9)) := by
  show StableHlo.after hostOps0 (W0 m ρ c) (Proc.devRef .tc main_v7) = _
  after_results_simp <;> rfl
theorem V1_v8 (c : Dev nD) : V1 m ρ c main_v8 = trLin (m ((c : Thread nD τ).loc main_arg10)) := by
  show StableHlo.after hostOps0 (W0 m ρ c) (Proc.devRef .tc main_v8) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_arg8 (c : Dev nD) : V1 m ρ c main_arg8 = m ((c : Thread nD τ).loc main_arg8) := by
  show StableHlo.after hostOps0 (W0 m ρ c) (Proc.devRef .tc main_arg8) = _
  after_results_simp <;> rfl
theorem V1_arg11 (c : Dev nD) : V1 m ρ c main_arg11 = m ((c : Thread nD τ).loc main_arg11) := by
  show StableHlo.after hostOps0 (W0 m ρ c) (Proc.devRef .tc main_arg11) = _
  after_results_simp <;> rfl

/-! ## Region 0 leaves the first layer in its result buffer and every other buffer as it was -/

/-- The first layer's rows. -/
def H1 (c : Dev nD) : F32 S100000x128 :=
  Cert.Sage.conv (n := 100000) (m ((c : Thread nD τ).loc main_arg0)) (segMean (m ((c : Thread nD τ).loc main_arg0)) (srcOf (m ((c : Thread nD τ).loc main_arg1))) (dstOf (m ((c : Thread nD τ).loc main_arg1)))) (tr (m ((c : Thread nD τ).loc main_arg4))) (tr (m ((c : Thread nD τ).loc main_arg6)))
    (fun q => row128 (m ((c : Thread nD τ).loc main_arg5)) (ix2 0 q))

theorem V2_v28 (c : Dev nD) : V2 m ρ c main_v28 = H1 m c := by
  show W2 m ρ c (Proc.devRef .tc (Pipeline.arrRef spec0 5)) = _
  rw [W2_arr, Cert.KernelIdeal.Region0.final, V1_arg0, V1_v26, V1_v4, V1_v5, V1_v27]
  rfl
theorem V2_v1 (c : Dev nD) : V2 m ρ c main_v1 = srcOf (m ((c : Thread nD τ).loc main_arg1)) :=
  (W2_of_ne m ρ c main_v1 (by decide)).trans (V1_v1 m ρ c)
theorem V2_v3 (c : Dev nD) : V2 m ρ c main_v3 = dstOf (m ((c : Thread nD τ).loc main_arg1)) :=
  (W2_of_ne m ρ c main_v3 (by decide)).trans (V1_v3 m ρ c)
theorem V2_v6 (c : Dev nD) : V2 m ρ c main_v6 = tr (m ((c : Thread nD τ).loc main_arg7)) :=
  (W2_of_ne m ρ c main_v6 (by decide)).trans (V1_v6 m ρ c)
theorem V2_v7 (c : Dev nD) : V2 m ρ c main_v7 = tr (m ((c : Thread nD τ).loc main_arg9)) :=
  (W2_of_ne m ρ c main_v7 (by decide)).trans (V1_v7 m ρ c)
theorem V2_v8 (c : Dev nD) : V2 m ρ c main_v8 = trLin (m ((c : Thread nD τ).loc main_arg10)) :=
  (W2_of_ne m ρ c main_v8 (by decide)).trans (V1_v8 m ρ c)
theorem V2_arg2 (c : Dev nD) : V2 m ρ c main_arg2 = m ((c : Thread nD τ).loc main_arg2) :=
  (W2_of_ne m ρ c main_arg2 (by decide)).trans (V1_arg2 m ρ c)
theorem V2_arg3 (c : Dev nD) : V2 m ρ c main_arg3 = m ((c : Thread nD τ).loc main_arg3) :=
  (W2_of_ne m ρ c main_arg3 (by decide)).trans (V1_arg3 m ρ c)
theorem V2_arg8 (c : Dev nD) : V2 m ρ c main_arg8 = m ((c : Thread nD τ).loc main_arg8) :=
  (W2_of_ne m ρ c main_arg8 (by decide)).trans (V1_arg8 m ρ c)
theorem V2_arg11 (c : Dev nD) : V2 m ρ c main_arg11 = m ((c : Thread nD τ).loc main_arg11) :=
  (W2_of_ne m ρ c main_arg11 (by decide)).trans (V1_arg11 m ρ c)

/-! ## What region 1 is entered with: the second host stretch read at each buffer -/

theorem V3_v46 (c : Dev nD) : V3 m ρ c main_v46 = segMean (H1 m c) (srcOf (m ((c : Thread nD τ).loc main_arg1))) (dstOf (m ((c : Thread nD τ).loc main_arg1))) := by
  have e : V3 m ρ c main_v46 = segMean (V2 m ρ c main_v28) (V2 m ρ c main_v1) (V2 m ρ c main_v3) := by
    show StableHlo.after hostOps1 (W2 m ρ c) (Proc.devRef .tc main_v46) = _
    after_results_simp <;> rfl
  rw [e, V2_v28, V2_v1, V2_v3]
theorem V3_v28 (c : Dev nD) : V3 m ρ c main_v28 = H1 m c := by
  have e : V3 m ρ c main_v28 = V2 m ρ c main_v28 := by
    show StableHlo.after hostOps1 (W2 m ρ c) (Proc.devRef .tc main_v28) = _
    after_results_simp <;> rfl
  rw [e, V2_v28]
theorem V3_v6 (c : Dev nD) : V3 m ρ c main_v6 = tr (m ((c : Thread nD τ).loc main_arg7)) := by
  have e : V3 m ρ c main_v6 = V2 m ρ c main_v6 := by
    show StableHlo.after hostOps1 (W2 m ρ c) (Proc.devRef .tc main_v6) = _
    after_results_simp <;> rfl
  rw [e, V2_v6]
theorem V3_v7 (c : Dev nD) : V3 m ρ c main_v7 = tr (m ((c : Thread nD τ).loc main_arg9)) := by
  have e : V3 m ρ c main_v7 = V2 m ρ c main_v7 := by
    show StableHlo.after hostOps1 (W2 m ρ c) (Proc.devRef .tc main_v7) = _
    after_results_simp <;> rfl
  rw [e, V2_v7]
theorem V3_v47 (c : Dev nD) : V3 m ρ c main_v47 = row128 (m ((c : Thread nD τ).loc main_arg8)) := by
  have e : V3 m ρ c main_v47 = row128 (V2 m ρ c main_arg8) := by
    show StableHlo.after hostOps1 (W2 m ρ c) (Proc.devRef .tc main_v47) = _
    after_results_simp <;> rfl
  rw [e, V2_arg8]
theorem V3_v8 (c : Dev nD) : V3 m ρ c main_v8 = trLin (m ((c : Thread nD τ).loc main_arg10)) := by
  have e : V3 m ρ c main_v8 = V2 m ρ c main_v8 := by
    show StableHlo.after hostOps1 (W2 m ρ c) (Proc.devRef .tc main_v8) = _
    after_results_simp <;> rfl
  rw [e, V2_v8]
theorem V3_arg2 (c : Dev nD) : V3 m ρ c main_arg2 = m ((c : Thread nD τ).loc main_arg2) := by
  have e : V3 m ρ c main_arg2 = V2 m ρ c main_arg2 := by
    show StableHlo.after hostOps1 (W2 m ρ c) (Proc.devRef .tc main_arg2) = _
    after_results_simp <;> rfl
  rw [e, V2_arg2]
theorem V3_arg3 (c : Dev nD) : V3 m ρ c main_arg3 = m ((c : Thread nD τ).loc main_arg3) := by
  have e : V3 m ρ c main_arg3 = V2 m ρ c main_arg3 := by
    show StableHlo.after hostOps1 (W2 m ρ c) (Proc.devRef .tc main_arg3) = _
    after_results_simp <;> rfl
  rw [e, V2_arg3]
theorem V3_arg11 (c : Dev nD) : V3 m ρ c main_arg11 = m ((c : Thread nD τ).loc main_arg11) := by
  have e : V3 m ρ c main_arg11 = V2 m ρ c main_arg11 := by
    show StableHlo.after hostOps1 (W2 m ρ c) (Proc.devRef .tc main_arg11) = _
    after_results_simp <;> rfl
  rw [e, V2_arg11]

/-! ## Region 1 leaves the second layer in its result buffer and every other buffer as it was -/

/-- The second layer's rows. -/
def H2 (c : Dev nD) : F32 S100000x128 :=
  Cert.Sage.conv (n := 100000) (H1 m c) (segMean (H1 m c) (srcOf (m ((c : Thread nD τ).loc main_arg1))) (dstOf (m ((c : Thread nD τ).loc main_arg1)))) (tr (m ((c : Thread nD τ).loc main_arg7))) (tr (m ((c : Thread nD τ).loc main_arg9)))
    (fun q => row128 (m ((c : Thread nD τ).loc main_arg8)) (ix2 0 q))

theorem V4_v48 (c : Dev nD) : V4 m ρ c main_v48 = H2 m c := by
  show W4 m ρ c (Proc.devRef .tc (Pipeline.arrRef spec1 5)) = _
  rw [W4_arr, Cert.KernelIdeal.Region1.final, V3_v28, V3_v46, V3_v6, V3_v7, V3_v47]
  rfl
theorem V4_v8 (c : Dev nD) : V4 m ρ c main_v8 = trLin (m ((c : Thread nD τ).loc main_arg10)) :=
  (W4_of_ne m ρ c main_v8 (by decide)).trans (V3_v8 m ρ c)
theorem V4_arg2 (c : Dev nD) : V4 m ρ c main_arg2 = m ((c : Thread nD τ).loc main_arg2) :=
  (W4_of_ne m ρ c main_arg2 (by decide)).trans (V3_arg2 m ρ c)
theorem V4_arg3 (c : Dev nD) : V4 m ρ c main_arg3 = m ((c : Thread nD τ).loc main_arg3) :=
  (W4_of_ne m ρ c main_arg3 (by decide)).trans (V3_arg3 m ρ c)
theorem V4_arg11 (c : Dev nD) : V4 m ρ c main_arg11 = m ((c : Thread nD τ).loc main_arg11) :=
  (W4_of_ne m ρ c main_arg11 (by decide)).trans (V3_arg11 m ρ c)

/-! ## What region 2 is entered with: the third host stretch read at each buffer -/

theorem V5_v60 (c : Dev nD) : V5 m ρ c main_v60 = cat (pool (H2 m c) (m ((c : Thread nD τ).loc main_arg2))) (m ((c : Thread nD τ).loc main_arg3)) := by
  have e : V5 m ρ c main_v60 = cat (pool (V4 m ρ c main_v48) (V4 m ρ c main_arg2)) (V4 m ρ c main_arg3) := by
    show StableHlo.after hostOps2 (W4 m ρ c) (Proc.devRef .tc main_v60) = _
    after_results_simp <;> rfl
  rw [e, V4_v48, V4_arg2, V4_arg3]
theorem V5_v8 (c : Dev nD) : V5 m ρ c main_v8 = trLin (m ((c : Thread nD τ).loc main_arg10)) := by
  have e : V5 m ρ c main_v8 = V4 m ρ c main_v8 := by
    show StableHlo.after hostOps2 (W4 m ρ c) (Proc.devRef .tc main_v8) = _
    after_results_simp <;> rfl
  rw [e, V4_v8]
theorem V5_v61 (c : Dev nD) : V5 m ρ c main_v61 = row8 (m ((c : Thread nD τ).loc main_arg11)) := by
  have e : V5 m ρ c main_v61 = row8 (V4 m ρ c main_arg11) := by
    show StableHlo.after hostOps2 (W4 m ρ c) (Proc.devRef .tc main_v61) = _
    after_results_simp <;> rfl
  rw [e, V4_arg11]

/-! ## The result -/

/-- The program's result as a function of its arguments: the final linear map of the pooled second layer beside the
    graph embedding. -/
def out (c : Dev nD) : F32 S64x8 :=
  Cert.Sage.lin (cat (pool (H2 m c) (m ((c : Thread nD τ).loc main_arg2))) (m ((c : Thread nD τ).loc main_arg3))) (trLin (m ((c : Thread nD τ).loc main_arg10))) (fun q => row8 (m ((c : Thread nD τ).loc main_arg11)) (ix2 0 q))

/-- The last boundary's contents at the result buffer are that function. -/
theorem W6_v62 (c : Dev nD) : W6 m ρ c (Proc.devRef .tc main_v62) = out m c := by
  show W6 m ρ c (Proc.devRef .tc (Pipeline.arrRef spec2 3)) = _
  rw [W6_arr, Cert.KernelIdeal.Region2.final, V5_v60, V5_v8, V5_v61]
  rfl

end Cert.KernelIdeal.Fold

end
-- ==== Proof.RefLayer.lean ====
/-
  The reference's layer and its final linear map, as the specification.

  On the host a SAGE layer is  max((agg · wlᵀ + bias broadcast down the rows) + h · wrᵀ, 0)  with the two products as
  `dot_general`s, and the final map is  z · wᵀ + bias broadcast down the rows; read at a row and a column these are the
  specification's sums.
-/
import proofs.«104093_j23424751632407_1_alg».proof.ReferenceIdeal
import proofs.«104093_j23424751632407_1_alg».proof.Proof.Gen.ReferenceIdeal
import proofs.«104093_j23424751632407_1_alg».proof.Proof.Spec

noncomputable section

namespace Cert.ReferenceIdeal.Layer

open Cert.ReferenceIdeal Cert.ReferenceIdeal.Facts₀ Idealize.ShloMosaic Idealize.ShloMosaic.ValueIdx

/-- The reference's SAGE layer, as its host operations: two products with the transposed weights, the bias broadcast
    down the rows, the rectifier against the zero word. -/
def layer (h agg : FVec Ideal S100000x128 .f32) (wlT wrT : FVec Ideal S128x128 .f32) (b : FVec Ideal S128 .f32) : FVec Ideal S100000x128 .f32 :=
  maximumf (addf (addf (Host.dotGeneral dot_S100000x128_S128x128_S100000x128_1_0_0_1_n_n none agg wlT)
      (broadcastInDim S100000x128 ![0, 1] bcast_S1x128_S100000x128_0_1 (broadcastInDim S1x128 ![1] bcast_S128_S1x128_1 b)))
      (Host.dotGeneral dot_S100000x128_S128x128_S100000x128_1_0_0_1_n_n none h wrT))
    (broadcastInDim S100000x128 ![] bcast_S_S100000x128 (constant S_ .f32 0x00000000#32))

/-- The bias broadcast down the rows, read at row `p`, column `q`: the bias at `q`. -/
private theorem bias_rows_apply {α : Type} (b : S128.Idx → α) (p : Fin 100000) (q : Fin 128) :
    broadcastInDim S100000x128 ![0, 1] bcast_S1x128_S100000x128_0_1 (broadcastInDim S1x128 ![1] bcast_S128_S1x128_1 b) (ix2 p q) =
      b (ix1 q) := by
  generalize hy : broadcastInDim S1x128 ![1] bcast_S128_S1x128_1 b = y
  rw [broadcastInDim_apply _ bcast_S1x128_S100000x128_0_1 y (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  subst hy
  exact broadcastInDim_apply _ bcast_S128_S1x128_1 b (ix2 (0 : Fin 1) q) (ix1 q) (fun a => match a with
    | ⟨0, _⟩ => by show q.val = if (128 : Nat) = 1 then 0 else q.val; rw [if_neg (by decide)])

/-- The scalar zero broadcast over the whole array, read anywhere: the zero word. -/
private theorem zero_rows_apply (j : S100000x128.Idx) :
    broadcastInDim S100000x128 ![] bcast_S_S100000x128 (constant (F := Ideal) S_ .f32 0x00000000#32) j = Cert.Sage.zeroWord := by
  rw [broadcastInDim_apply _ bcast_S_S100000x128 (constant (F := Ideal) S_ .f32 0x00000000#32) j ix0 (fun a => a.elim0)]
  rfl

/-- The reference's layer is the specification's. -/
theorem layer_eq (h agg : FVec Ideal S100000x128 .f32) (wlT wrT : FVec Ideal S128x128 .f32) (b : FVec Ideal S128 .f32) :
    layer h agg wlT wrT b = Cert.Sage.conv (n := 100000) h agg wlT wrT (fun q => b (ix1 q)) := by
  funext j
  obtain ⟨p, q, rfl⟩ : ∃ (p : Fin 100000) (q : Fin 128), j = ix2 p q := ⟨j 0, j 1, eq_ix2 j⟩
  rw [Cert.Sage.conv_apply]
  unfold layer Cert.Sage.convAt
  simp only [Host.dotGeneral]
  rw [maximumf_apply, addf_apply, addf_apply,
    Cert.Sage.dotGeneral_apply dot_S100000x128_S128x128_S100000x128_1_0_0_1_n_n rfl rfl rfl rfl rfl rfl none _ agg wlT p q,
    Cert.Sage.dotGeneral_apply dot_S100000x128_S128x128_S100000x128_1_0_0_1_n_n rfl rfl rfl rfl rfl rfl none _ h wrT p q,
    bias_rows_apply, zero_rows_apply]

/-- The reference's final linear map, as its host operations. -/
def linear (z : FVec Ideal S64x192 .f32) (wT : FVec Ideal S192x8 .f32) (b : FVec Ideal S8 .f32) : FVec Ideal S64x8 .f32 :=
  addf (Host.dotGeneral dot_S64x192_S192x8_S64x8_1_0_0_1_n_n none z wT)
    (broadcastInDim S64x8 ![0, 1] bcast_S1x8_S64x8_0_1 (broadcastInDim S1x8 ![1] bcast_S8_S1x8_1 b))

/-- The final map's bias broadcast down the rows, read at row `p`, column `q`: the bias at `q`. -/
private theorem bias_rows8_apply {α : Type} (b : S8.Idx → α) (p : Fin 64) (q : Fin 8) :
    broadcastInDim S64x8 ![0, 1] bcast_S1x8_S64x8_0_1 (broadcastInDim S1x8 ![1] bcast_S8_S1x8_1 b) (ix2 p q) = b (ix1 q) := by
  generalize hy : broadcastInDim S1x8 ![1] bcast_S8_S1x8_1 b = y
  rw [broadcastInDim_apply _ bcast_S1x8_S64x8_0_1 y (ix2 p q) (ix2 (0 : Fin 1) q) (fun a => match a with
    | ⟨0, _⟩ => by show 0 = if (1 : Nat) = 1 then 0 else p.val; rw [if_pos rfl]
    | ⟨1, _⟩ => by show q.val = if (8 : Nat) = 1 then 0 else q.val; rw [if_neg (by decide)])]
  subst hy
  exact broadcastInDim_apply _ bcast_S8_S1x8_1 b (ix2 (0 : Fin 1) q) (ix1 q) (fun a => match a with
    | ⟨0, _⟩ => by show q.val = if (8 : Nat) = 1 then 0 else q.val; rw [if_neg (by decide)])

/-- The reference's final map is the specification's. -/
theorem linear_eq (z : FVec Ideal S64x192 .f32) (wT : FVec Ideal S192x8 .f32) (b : FVec Ideal S8 .f32) :
    linear z wT b = Cert.Sage.lin z wT (fun q => b (ix1 q)) := by
  funext j
  obtain ⟨p, q, rfl⟩ : ∃ (p : Fin 64) (q : Fin 8), j = ix2 p q := ⟨j 0, j 1, eq_ix2 j⟩
  rw [Cert.Sage.lin_apply]
  unfold linear Cert.Sage.linAt
  simp only [Host.dotGeneral]
  rw [addf_apply,
    Cert.Sage.dotGeneral_apply dot_S64x192_S192x8_S64x8_1_0_0_1_n_n rfl rfl rfl rfl rfl rfl none _ z wT p q,
    bias_rows8_apply]

end Cert.ReferenceIdeal.Layer

end
-- ==== Proof.RefValue.lean ====
/-
  The reference program's result as one function of its arguments.

  The reference's run ends with its result at the composed term of its host operations. That term is the final linear
  map of the pooled second layer beside the graph embedding, each layer the host's two products, bias and rectifier of
  the previous rows and of their mean over the edges; the gather, the scatter-adds, the transposes and the concatenation
  are kept as names and never opened. Each layer and the final map are then the specification's.
-/
import proofs.«104093_j23424751632407_1_alg».proof.Proof.Gen.ReferenceIdeal.Run
import proofs.«104093_j23424751632407_1_alg».proof.Proof.RefLayer

set_option maxRecDepth 16384

noncomputable section

namespace Cert.ReferenceIdeal.RefValue

open Cert.ReferenceIdeal Cert.ReferenceIdeal.Facts₀ Cert.ReferenceIdeal.Layer
open Idealize.ShloMosaic Idealize.ShloMosaic.TcCoe Idealize.ShloMosaic.ValueIdx Idealize.SL.Sem

/-- A float array of shape `S`, and an array of 32-bit integers, as the program's buffers hold them. -/
abbrev F32 (S : Shape) := FVec Ideal S .f32
abbrev I32 (S : Shape) := IVec S 32

/-! ## The host operations, named -/

/-- The edges' source rows: row 0 of the edge list. -/
def srcOf (e : I32 S2x800000) : I32 S800000 :=
  shapeCast _ (extractStridedSlice S1x800000 ![0, 0] e slices_S2x800000_S1x800000_0_0) shapeCasts_S1x800000_S800000
/-- The edges' destination rows: row 1 of the edge list. -/
def dstOf (e : I32 S2x800000) : I32 S800000 :=
  shapeCast _ (extractStridedSlice S1x800000 ![1, 0] e slices_S2x800000_S1x800000_1_0) shapeCasts_S1x800000_S800000
/-- The mean, at each destination row, of the source rows of `h` gathered along the edges (a negative source counted
    from the end), the count clamped below by one. -/
def segMean (h : F32 S100000x128) (s d : I32 S800000) : F32 S100000x128 :=
  Host.divf
    (Host.scatterAdd scatter_S100000x128_S800000x1_S800000x128_1_0_0_1
      (broadcastInDim S100000x128 ![] bcast_S_S100000x128 (constant S_ .f32 0x00000000#32))
      (broadcastInDim S800000x1 ![0] bcast_S800000_S800000x1_0 d)
      (Host.gather gather_S100000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 100000#32))) s))))
    (broadcastInDim S100000x128 ![0, 1] bcast_S100000x1_S100000x128_0_1
      (maximumf
        (Host.scatterAdd scatter_S100000x1_S800000x1_S800000x1_1_0_0_1
          (broadcastInDim S100000x1 ![] bcast_S_S100000x1 (constant S_ .f32 0x00000000#32))
          (broadcastInDim S800000x1 ![0] bcast_S800000_S800000x1_0 d)
          (broadcastInDim S800000x1 ![] bcast_S_S800000x1 (constant S_ .f32 0x3F800000#32)))
        (broadcastInDim S100000x1 ![] bcast_S_S100000x1 (constant S_ .f32 0x3F800000#32))))
/-- The mean of the rows of `h` of each graph, the count clamped below by one. -/
def pool (h : F32 S100000x128) (g : I32 S100000) : F32 S64x128 :=
  Host.divf
    (Host.scatterAdd scatter_S64x128_S100000x1_S100000x128_1_0_0_1
      (broadcastInDim S64x128 ![] bcast_S_S64x128 (constant S_ .f32 0x00000000#32))
      (broadcastInDim S100000x1 ![0] bcast_S100000_S100000x1_0 g) h)
    (broadcastInDim S64x128 ![0, 1] bcast_S64x1_S64x128_0_1
      (maximumf
        (Host.scatterAdd scatter_S64x1_S100000x1_S100000x1_1_0_0_1
          (broadcastInDim S64x1 ![] bcast_S_S64x1 (constant S_ .f32 0x00000000#32))
          (broadcastInDim S100000x1 ![0] bcast_S100000_S100000x1_0 g)
          (broadcastInDim S100000x1 ![] bcast_S_S100000x1 (constant S_ .f32 0x3F800000#32)))
        (broadcastInDim S64x1 ![] bcast_S_S64x1 (constant S_ .f32 0x3F800000#32))))
/-- The pooled rows with the graph embedding appended. -/
def cat (a : F32 S64x128) (e : F32 S64x64) : F32 S64x192 :=
  concatenate S64x192 1 [⟨S64x128, a⟩, ⟨S64x64, e⟩] concatenates_S64x128_S64x64_S64x192_d1
/-- A layer's weight matrix transposed, and the final map's. -/
def tr (w : F32 S128x128) : F32 S128x128 := transpose S128x128 [1, 0] w transposes_S128x128_S128x128_1_0
def trLin (w : F32 S8x192) : F32 S192x8 := transpose S192x8 [1, 0] w transposes_S8x192_S192x8_1_0

variable (m : (ℓ : Loc nD τ sig) → Buf (Elt Ideal) ℓ)

/-! ## The run's term, folded into the named operations -/

/-- The first layer's rows, as the reference computes them. -/
def H1 (c : Dev nD) : F32 S100000x128 :=
  layer (m ((c.tc : Thread nD τ).loc main_arg0)) (segMean (m ((c.tc : Thread nD τ).loc main_arg0)) (srcOf (m ((c.tc : Thread nD τ).loc main_arg1))) (dstOf (m ((c.tc : Thread nD τ).loc main_arg1)))) (tr (m ((c.tc : Thread nD τ).loc main_arg4))) (tr (m ((c.tc : Thread nD τ).loc main_arg6))) (m ((c.tc : Thread nD τ).loc main_arg5))
/-- The second layer's rows. -/
def H2 (c : Dev nD) : F32 S100000x128 :=
  layer (H1 m c) (segMean (H1 m c) (srcOf (m ((c.tc : Thread nD τ).loc main_arg1))) (dstOf (m ((c.tc : Thread nD τ).loc main_arg1)))) (tr (m ((c.tc : Thread nD τ).loc main_arg7))) (tr (m ((c.tc : Thread nD τ).loc main_arg9))) (m ((c.tc : Thread nD τ).loc main_arg8))
/-- The result. -/
def out (c : Dev nD) : F32 S64x8 :=
  linear (cat (pool (H2 m c) (m ((c.tc : Thread nD τ).loc main_arg2))) (m ((c.tc : Thread nD τ).loc main_arg3))) (trLin (m ((c.tc : Thread nD τ).loc main_arg10))) (m ((c.tc : Thread nD τ).loc main_arg11))

/-- The run's composed term is that composition: the same operations, grouped. -/
theorem res_eq (c : Dev nD) : Cert.ReferenceIdeal.Value.res_main_v74 (F := Ideal) m c = out m c := by
  unfold Cert.ReferenceIdeal.Value.res_main_v74
  rfl

/-! ## The same with each layer and the final map as the specification -/

/-- The first layer's rows, by the specification. -/
def H1s (c : Dev nD) : F32 S100000x128 :=
  Cert.Sage.conv (n := 100000) (m ((c.tc : Thread nD τ).loc main_arg0)) (segMean (m ((c.tc : Thread nD τ).loc main_arg0)) (srcOf (m ((c.tc : Thread nD τ).loc main_arg1))) (dstOf (m ((c.tc : Thread nD τ).loc main_arg1)))) (tr (m ((c.tc : Thread nD τ).loc main_arg4))) (tr (m ((c.tc : Thread nD τ).loc main_arg6)))
    (fun q => (m ((c.tc : Thread nD τ).loc main_arg5)) (ix1 q))
/-- The second layer's rows, by the specification. -/
def H2s (c : Dev nD) : F32 S100000x128 :=
  Cert.Sage.conv (n := 100000) (H1s m c) (segMean (H1s m c) (srcOf (m ((c.tc : Thread nD τ).loc main_arg1))) (dstOf (m ((c.tc : Thread nD τ).loc main_arg1)))) (tr (m ((c.tc : Thread nD τ).loc main_arg7))) (tr (m ((c.tc : Thread nD τ).loc main_arg9)))
    (fun q => (m ((c.tc : Thread nD τ).loc main_arg8)) (ix1 q))
/-- The result, by the specification. -/
def outs (c : Dev nD) : F32 S64x8 :=
  Cert.Sage.lin (cat (pool (H2s m c) (m ((c.tc : Thread nD τ).loc main_arg2))) (m ((c.tc : Thread nD τ).loc main_arg3))) (trLin (m ((c.tc : Thread nD τ).loc main_arg10))) (fun q => (m ((c.tc : Thread nD τ).loc main_arg11)) (ix1 q))

theorem H1_eq (c : Dev nD) : H1 m c = H1s m c := by
  unfold H1 H1s
  exact layer_eq _ _ _ _ _

theorem H2_eq (c : Dev nD) : H2 m c = H2s m c := by
  unfold H2 H2s
  rw [H1_eq]
  exact layer_eq _ _ _ _ _

theorem out_eq (c : Dev nD) : out m c = outs m c := by
  unfold out outs
  rw [H2_eq]
  exact linear_eq _ _ _

/-- The reference run's result term is the specification composed with the named host operations. -/
theorem res_spec (c : Dev nD) : Cert.ReferenceIdeal.Value.res_main_v74 (F := Ideal) m c = outs m c :=
  (res_eq m c).trans (out_eq m c)

end Cert.ReferenceIdeal.RefValue

end
-- ==== Proof.lean ====
/-
  A two-layer SAGE graph network with mean pooling: the kernel program against its plain reference, over the extended reals.

  Both programs gather the source rows along 800000 edges, average them at the destination rows (a scatter-add divided
  by the count clamped below by one), and apply  max((agg · Wlᵀ + b) + h · Wrᵀ, 0)  twice; then they average the rows
  of each of 64 graphs, append the graph embedding, and apply  z · Wlinᵀ + blin.  The reference does the three linear
  steps as host products; the kernel program does each in a region: the two layers on 20 blocks of 5000 rows, the last
  map on whole arrays, its operands cast to a narrower float format first, which at the extended reals is the identity.

  The proof names the shared host operations (gather, scatter-add means, transposes, concatenation) on each side and
  never opens them. A layer's value at a row reads that row of its operands only, so the kernel's blocks assemble to
  the layer of the whole arrays; a matrix product into zero and the host's product are the same sum over the
  contracted coordinate; a bias viewed as a row and broadcast down, or broadcast twice on the host, is the bias at the
  column. So both results are ONE composition of the specification's layer and final map with the named operations,
  applied to the same arguments. No law of the extended reals beyond that is used, and the finiteness of the inputs is
  not needed.

  The kernel's idealization rewrote no operation, so it preserves the kernel trivially; the three programs' frames are
  the generated ones, the reference's read off its generated run.
-/
import proofs.«104093_j23424751632407_1_alg».proof.Defs
import proofs.«104093_j23424751632407_1_alg».proof.Proof.Gen.Kernel.Frame
import proofs.«104093_j23424751632407_1_alg».proof.Proof.Gen.KernelIdeal.Frame
import proofs.«104093_j23424751632407_1_alg».proof.Proof.Gen.ReferenceIdeal
import proofs.«104093_j23424751632407_1_alg».proof.Proof.Gen.Pre_finite_inputs
import proofs.«104093_j23424751632407_1_alg».proof.Proof.KernelRun
import proofs.«104093_j23424751632407_1_alg».proof.Proof.KernelFold
import proofs.«104093_j23424751632407_1_alg».proof.Proof.RefValue
import Idealize.ShloMosaic.Lib.ValueLayout
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The frames and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-! ## The two results are one composition -/

/-- From arguments that agree, the reference's composition is the kernel's: the same specification of the same named
    host operations; the kernel's bias row read at its one row is the bias. -/
theorem result_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RefValue.outs m' c = Cert.KernelIdeal.Fold.out m c := by
  unfold Cert.ReferenceIdeal.RefValue.outs Cert.ReferenceIdeal.RefValue.H2s Cert.ReferenceIdeal.RefValue.H1s Cert.KernelIdeal.Fold.out Cert.KernelIdeal.Fold.H2 Cert.KernelIdeal.Fold.H1
  rw [h0, h1, h2, h3, h4, h5, h6, h7, h8, h9, h10, h11]
  simp only [Cert.KernelIdeal.Fold.row128, Cert.KernelIdeal.Fold.row8, shapeCast_a_1a_apply]
  rfl

/-! ## The claims -/

/-- Both programs end with the result at that one composition of the arguments. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono (fun r h c => ⟨(h c).1.trans (Cert.KernelIdeal.Fold.W6_v62 m ρ c), (h c).2⟩)
      (Cert.KernelIdeal.ValueRun.run (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11⟩ := hagree c
    exact (Cert.ReferenceIdeal.RefValue.res_spec m' c).trans (result_agree m m' c h0 h1 h2 h3 h4 h5 h6 h7 h8 h9 h10 h11)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
